-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x128 .f32) (main_arg4 : FVec F S128 .f32) (main_arg5 : FVec F S128x64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S2000x64_S2000x64 : S2000x64.ShapeCasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S100000x256, .f32⟩
  | 1 => ⟨S2x1600000, .i32⟩
  | 2 => ⟨S1600000, .f32⟩
  | 3 => ⟨S256x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S100000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S1700000x1, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000, .i32⟩
  | 74 => ⟨S1700000, .i32⟩
  | 75 => ⟨S100000, .i32⟩
  | 76 => ⟨S1700000, .i32⟩
  | 77 => ⟨S_, .f32⟩
  | 78 => ⟨S100000, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S100000x64, .f32⟩
  | 113 => ⟨S1700000x1, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x256, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_17 : Ref sig .tc := ⟨.hbm, 114, rfl⟩
abbrev main_v82 : Ref sig .tc := ⟨.hbm, 115, rfl⟩
abbrev main_v83 : Ref sig .tc := ⟨.hbm, 116, rfl⟩
abbrev main_c_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.LibDenseOps.lean ====
/-
  General lemma: a host matrix product read at an index, at the ideal instance.

  * a plain contraction `[M,K]·[K,N]` (the left operand's columns against the right operand's rows), read at `(p, c)`,
    is `Σ k, lhs (p, k) · rhs (k, c)`: the same sum a block-wise product of rows computes.
-/
import Idealize.ShloMosaic.PureOps.Ideal.Laws
import Idealize.ShloMosaic.Lib.ValueIdx

noncomputable section

namespace Cert.DenseOps

open Idealize.ShloMosaic Idealize.ShloMosaic.ValueIdx

/-- A host contraction `[M,K]·[K,N]` of the left operand's axis 1 with the right operand's axis 0, no batch axes,
    read at `(p, c)`: the sum over `k` of `lhs (p, k) · rhs (k, c)`. -/
theorem hostDot_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    Host.dotGeneral (⟨[1], [0], [0], [1], [], [], wf⟩ : DotDims ⟨2, ![M, K]⟩ ⟨2, ![K, N]⟩ ⟨2, ![M, N]⟩) prec lhs rhs (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  simp only [Host.dotGeneral]
  rw [Ideal.dotGeneral_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.DenseOps

end
-- ==== Proof.Region0.lean ====
/-
  Region 0, the first dense layer: the array it leaves is the whole product of the node features with the first weight matrix.
-/
import proofs.«177780_j29429115912800_1_alg».proof.Proof.Gen.KernelIdeal.Frame
import proofs.«177780_j29429115912800_1_alg».proof.Proof.Gen.ReferenceIdeal.Read
import proofs.«177780_j29429115912800_1_alg».proof.Proof.LibRowOps
import proofs.«177780_j29429115912800_1_alg».proof.Proof.LibDenseOps

set_option maxRecDepth 16384

noncomputable section

namespace Cert.Gcn.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, however they are spelt. -/
theorem zeroOffsets : (![0, 0] : Fin 2 → Nat) = fun _ => 0 := funext fun a => by fin_cases a <;> rfl

/-- The whole product of the features `X` with the weights `W`: entry `(r, q)` is `Σ k, X (r, k) · W (k, q)`. -/
abbrev product (X : Vec Ideal S100000x256 .f32) (W : Vec Ideal S256x128 .f32) : Vec Ideal S100000x128 .f32 :=
  Host.dotGeneral (F := Ideal) (φ₁ := .f32) (φ₂ := .f32) Cert.ReferenceIdeal.dot_S100000x256_S256x128_S100000x128_1_0_0_1_n_n none X W

/-- One entry `(p, q)` of a row block's product is the entry of the whole product at the array index `i` it lands on,
    when the block's row `p` is the array's row `i 0` and the block's weights are the whole weight matrix, read at
    column `i 1`: both are the sum over `k` of the same products. The narrowing of the operands is the identity on
    extended reals, and the accumulator starts at zero. -/
theorem block_entry (x : Vec Ideal S2000x256 .f32) (w : Vec Ideal S256x128 .f32)
    (X : Vec Ideal S100000x256 .f32) (W : Vec Ideal S256x128 .f32)
    (p : Fin 2000) (q : Fin 128) (i : S100000x128.Idx)
    (hx : ∀ k : Fin 256, x (ix2 p k) = X (ix2 (i 0) k))
    (hw : ∀ k : Fin 256, w (ix2 k q) = W (ix2 k (i 1))) :
    k0_pay1 x w (ix2 p q) = product X W i := by
  obtain ⟨r, s, rfl⟩ : ∃ (r : Fin 100000) (s : Fin 128), i = ix2 r s := ⟨i 0, i 1, eq_ix2 i⟩
  refine (Cert.RowOps.matmul_apply dot_S2000x256_S256x128_S2000x128_1_0_0_1_n_n_wf none
    (truncf .bf16 x bitsLt_bf16_f32) (truncf .bf16 w bitsLt_bf16_f32) p q).trans ?_
  refine Eq.trans ?_ (Cert.DenseOps.hostDot_apply _ none X W r s).symm
  refine Finset.sum_congr rfl fun k _ => ?_
  show x (ix2 p k) * w (ix2 k q) = X (ix2 r k) * W (ix2 k s)
  rw [hx k, hw k]

/-- The index maps at every point of the grid: the feature window moves with the output window along the rows and
    sits at column block 0, the weight window stays on the whole matrix, and the output's block at point `t` is row
    block `t`, column block 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product of the two arrays as the region finds them: entry
    `(p, q)` of the block depends on row `p` of the feature block, which is row `2000 t + p` of the features, and on
    column `q` of the weights. -/
theorem flushed_block (c : Dev nD) (t : Fin cfg0.N) :
    (dat0 (F := Ideal) V c).flushed 2 t
      = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x128) zeroOffsets]
  obtain ⟨e0, e1, e2, e3, e4, e5⟩ := index_facts t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = product (V c main_arg0) (V c main_arg3) (((cfg0.win 2).blk t).view.emb (ix2 p q))
  refine block_entry (iblk0 V c 0 t) (iblk0 V c 1 t) (V c main_arg0) (V c main_arg3) p q _ (fun k => ?_) (fun k => ?_)
  · show (V c main_arg0 : Vec Ideal S100000x256 .f32) (((cfg0.win 0).blk t).view.emb (ix2 p k)) = _
    refine congrArg (V c main_arg0 : Vec Ideal S100000x256 .f32) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  · show (V c main_arg3 : Vec Ideal S256x128 .f32) (((cfg0.win 1).blk t).view.emb (ix2 k q)) = _
    refine congrArg (V c main_arg3 : Vec Ideal S256x128 .f32) (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega

/-- An index of the array is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- The row blocks tile the array: row `r` is in the block of point `r / 2000`, which is written back. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_2 _, ?_⟩
  obtain ⟨-, -, -, -, e4, e5⟩ := index_facts ⟨(i 0).val / 2000, by rw [hN]; omega⟩
  rw [mem_block]
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- The array the region leaves is the whole product: every point writes back its block of it, and the blocks tile
    the array. -/
theorem value (c : Dev nD) :
    (dat0 (F := Ideal) V c).arrAt 2 cfg0.N
      = Host.dotGeneral (F := Ideal) (φ₁ := .f32) (φ₂ := .f32) Cert.ReferenceIdeal.dot_S100000x256_S256x128_S100000x128_1_0_0_1_n_n none (V c main_arg0) (V c main_arg3) := by
  exact (dat0 (F := Ideal) V c).arrAt_eq_of_cover 2 (product (V c main_arg0) (V c main_arg3))
    (fun t _ => flushed_block V c t) covered

end Cert.Gcn.Region0

end
-- ==== Proof.Region1.lean ====
/-
  Region 1, the first layer's epilogue: the array it leaves is the aggregate plus the bias row, clamped below at zero.
-/
import proofs.«177780_j29429115912800_1_alg».proof.Proof.Gen.KernelIdeal.Frame
import proofs.«177780_j29429115912800_1_alg».proof.Proof.Gen.ReferenceIdeal.Read
import proofs.«177780_j29429115912800_1_alg».proof.Proof.LibRowOps

set_option maxRecDepth 16384

noncomputable section

namespace Cert.Gcn.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The unit rectangle's offsets are the zero vector. -/
theorem zero_off : (![0, 0] : Fin 2 → Nat) = fun _ => 0 := funext fun a => by fin_cases a <;> rfl

/-- The body's payload at (p, q): the aggregate block's entry plus the bias row's entry q, clamped below at zero. -/
theorem payload_apply (brow : Vec Ideal S1x128 .f32) (blk : Vec Ideal S2000x128 .f32) (p : Fin 2000) (q : Fin 128) :
    k1_pay1 brow blk (ix2 p q) = max (blk (ix2 p q) + brow (ix2 (0 : Fin 1) q)) (Ideal.ofBits .f32 0x00000000#32) := by
  unfold k1_pay1
  show max (shapeCast S2000x128 blk shapeCasts_S2000x128_S2000x128 (ix2 p q) + broadcastTo S2000x128 (shapeCast S1x128 (shapeCast S1x128 brow shapeCasts_S1x128_S1x128) shapeCasts_S1x128_S1x128) broadcasts_S1x128_S2000x128 (ix2 p q)) (Ideal.ofBits .f32 0x00000000#32) = _
  rw [shapeCast_self blk, shapeCast_self brow, Cert.RowOps.rowParam_spread_apply]

/-- The claimed array at (r, q): the aggregate's entry plus the bias row's entry q, clamped below at zero. -/
theorem claimed_apply (agg : FVec Ideal S100000x128 .f32) (brow : FVec Ideal S1x128 .f32) (r : Fin 100000) (q : Fin 128) :
    maximumf (addf agg (broadcastInDim S100000x128 ![0, 1] Cert.ReferenceIdeal.Facts₀.bcast_S1x128_S100000x128_0_1 brow))
        (broadcastInDim S100000x128 ![] Cert.ReferenceIdeal.Facts₀.bcast_S_S100000x128 (constant (F := Ideal) S_ .f32 0x00000000#32)) (ix2 r q)
      = max (agg (ix2 r q) + brow (ix2 (0 : Fin 1) q)) (Ideal.ofBits .f32 0x00000000#32) := by
  rw [maximumf_apply, addf_apply,
    broadcastInDim_apply _ Cert.ReferenceIdeal.Facts₀.bcast_S1x128_S100000x128_0_1 brow (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ Cert.ReferenceIdeal.Facts₀.bcast_S_S100000x128 (constant (F := Ideal) S_ .f32 0x00000000#32) (ix2 r q) (fun a => a.elim0) (fun a => a.elim0)]
  rfl

/-- The index maps over the grid: the aggregate's and the result's block at point t is block t of the rows, column block 0; the bias row's block is the whole row. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of the written block against one entry of the claimed array: when the aggregate block's entry (p, q) is the
    aggregate's entry at i, the staged bias row agrees with the bias row at column q, and i lies in column q. -/
theorem point_eq (agg : FVec Ideal S100000x128 .f32) (brow : FVec Ideal S1x128 .f32)
    (blk : Vec Ideal S2000x128 .f32) (bb : Vec Ideal S1x128 .f32) (p : Fin 2000) (q : Fin 128) (i : S100000x128.Idx)
    (hq : (i 1).val = q.val) (hblk : blk (ix2 p q) = agg i) (hbb : bb (ix2 (0 : Fin 1) q) = brow (ix2 (0 : Fin 1) q)) :
    k1_pay1 bb blk (ix2 p q)
      = maximumf (addf agg (broadcastInDim S100000x128 ![0, 1] Cert.ReferenceIdeal.Facts₀.bcast_S1x128_S100000x128_0_1 brow))
          (broadcastInDim S100000x128 ![] Cert.ReferenceIdeal.Facts₀.bcast_S_S100000x128 (constant (F := Ideal) S_ .f32 0x00000000#32)) i := by
  obtain ⟨r, q', rfl⟩ : ∃ (r : Fin 100000) (q' : Fin 128), i = ix2 r q' := ⟨i 0, i 1, eq_ix2 i⟩
  have hqq : q' = q := Fin.ext hq
  subst hqq
  rw [payload_apply, claimed_apply, hblk, hbb]

/-- What point t writes back is block t of the claimed array. -/
theorem flushed_eq (c : Dev nD) (t : Fin cfg1.N) :
    (dat1 (F := Ideal) V c).flushed 2 t = ((cfg1.win 2).blk t).view.read (Elt Ideal)
      (maximumf (addf (V c main_v45) (broadcastInDim S100000x128 ![0, 1] Cert.ReferenceIdeal.Facts₀.bcast_S1x128_S100000x128_0_1 (V c main_v46)))
          (broadcastInDim S100000x128 ![] Cert.ReferenceIdeal.Facts₀.bcast_S_S100000x128 (constant (F := Ideal) S_ .f32 0x00000000#32))) := by
  show (cfg1.win 2).cut (grid1.coords t) ((dat1 V c).after 2 t) = _
  rw [after1_2]
  unfold out1_2
  rw [View.canon_unit_zero zero_off]
  simp only [View.ld_unit_zero (S := S2000x128) zero_off, View.ld_unit_zero (S := S1x128) zero_off]
  obtain ⟨e0, e1, e2, e3, e4, e5⟩ := block_index t
  funext j
  obtain ⟨p, q, rfl⟩ : ∃ (p : Fin 2000) (q : Fin 128), j = ix2 p q := ⟨j 0, j 1, eq_ix2 j⟩
  refine point_eq (V c main_v45) (V c main_v46) (iblk1 V c 0 t) (iblk1 V c 1 t) p q (((cfg1.win 2).blk t).view.emb (ix2 p q)) ?_ ?_ ?_
  · -- the result's block keeps the column
    show win1_2.index t (1 : Fin 2) * 128 + 1 * q.val = q.val
    omega
  · -- the aggregate's block and the result's block are the same rows and columns
    show V c main_v45 (((cfg1.win 0).blk t).view.emb (ix2 p q)) = V c main_v45 (((cfg1.win 2).blk t).view.emb (ix2 p q))
    refine congrArg (V c main_v45) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  · -- the bias window is the whole one-row array
    show V c main_v46 (((cfg1.win 1).blk t).view.emb (ix2 (0 : Fin 1) q)) = V c main_v46 (ix2 (0 : Fin 1) q)
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega

/-- An index is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- The row blocks tile the array: row r is in the block of point r / 2000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by show _ < grid1.N; rw [N_1]; omega⟩, rfl⟩
  obtain ⟨-, -, -, -, e4, e5⟩ := block_index t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

theorem value (c : Dev nD) :
    (dat1 (F := Ideal) V c).arrAt 2 cfg1.N
      = maximumf (addf (V c main_v45) (broadcastInDim S100000x128 ![0, 1] Cert.ReferenceIdeal.Facts₀.bcast_S1x128_S100000x128_0_1 (V c main_v46)))
          (broadcastInDim S100000x128 ![] Cert.ReferenceIdeal.Facts₀.bcast_S_S100000x128 (constant (F := Ideal) S_ .f32 0x00000000#32)) :=
  (dat1 V c).arrAt_eq_of_cover 2 _ (fun t _ => flushed_eq V c t) cover

end Cert.Gcn.Region1

end
-- ==== Proof.Region2.lean ====
/-
  Region 2, the second dense layer: the array it leaves is the whole product of the hidden features with the second weight matrix.
-/
import proofs.«177780_j29429115912800_1_alg».proof.Proof.Gen.KernelIdeal.Frame
import proofs.«177780_j29429115912800_1_alg».proof.Proof.Gen.ReferenceIdeal.Read
import proofs.«177780_j29429115912800_1_alg».proof.Proof.LibRowOps
import proofs.«177780_j29429115912800_1_alg».proof.Proof.LibDenseOps

set_option maxRecDepth 16384

noncomputable section

namespace Cert.Gcn.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, however they are spelt. -/
theorem zeroOffsets : (![0, 0] : Fin 2 → Nat) = fun _ => 0 := funext fun a => by fin_cases a <;> rfl

/-- The whole product of the hidden features `H` with the weights `W`: entry `(r, q)` is `Σ k, H (r, k) · W (k, q)`. -/
abbrev product (H : Vec Ideal S100000x128 .f32) (W : Vec Ideal S128x64 .f32) : Vec Ideal S100000x64 .f32 :=
  Host.dotGeneral (F := Ideal) (φ₁ := .f32) (φ₂ := .f32) Cert.ReferenceIdeal.dot_S100000x128_S128x64_S100000x64_1_0_0_1_n_n none H W

/-- One entry `(p, q)` of a row block's product is the entry of the whole product at the array index `i` it lands on,
    when the block's row `p` is the array's row `i 0` and the block's weights are the whole weight matrix, read at
    column `i 1`: both are the sum over `k` of the same products. The reshaping of the block to its own shape and the
    narrowing of the operands are the identity on extended reals, and the accumulator starts at zero. -/
theorem block_entry (x : Vec Ideal S2000x128 .f32) (w : Vec Ideal S128x64 .f32)
    (H : Vec Ideal S100000x128 .f32) (W : Vec Ideal S128x64 .f32)
    (p : Fin 2000) (q : Fin 64) (i : S100000x64.Idx)
    (hx : ∀ k : Fin 128, x (ix2 p k) = H (ix2 (i 0) k))
    (hw : ∀ k : Fin 128, w (ix2 k q) = W (ix2 k (i 1))) :
    k2_pay1 x w (ix2 p q) = product H W i := by
  obtain ⟨r, s, rfl⟩ : ∃ (r : Fin 100000) (s : Fin 64), i = ix2 r s := ⟨i 0, i 1, eq_ix2 i⟩
  refine (Cert.RowOps.matmul_apply dot_S2000x128_S128x64_S2000x64_1_0_0_1_n_n_wf none
    (truncf .bf16 (shapeCast S2000x128 x shapeCasts_S2000x128_S2000x128) bitsLt_bf16_f32) (truncf .bf16 w bitsLt_bf16_f32) p q).trans ?_
  refine Eq.trans ?_ (Cert.DenseOps.hostDot_apply _ none H W r s).symm
  refine Finset.sum_congr rfl fun k _ => ?_
  show shapeCast S2000x128 x shapeCasts_S2000x128_S2000x128 (ix2 p k) * w (ix2 k q) = H (ix2 r k) * W (ix2 k s)
  rw [shapeCast_self, hx k, hw k]

/-- The index maps at every point of the grid: the hidden-feature window moves with the output window along the rows
    and sits at column block 0, the weight window stays on the whole matrix, and the output's block at point `t` is
    row block `t`, column block 0. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the whole product of the two arrays as the region finds them: entry
    `(p, q)` of the block depends on row `p` of the hidden-feature block, which is row `2000 t + p` of the hidden
    features, and on column `q` of the weights. -/
theorem flushed_block (c : Dev nD) (t : Fin cfg2.N) :
    (dat2 (F := Ideal) V c).flushed 2 t
      = ((cfg2.win 2).blk t).view.read (Elt Ideal) (product (V c main_v47) (V c main_arg5)) := by
  show (cfg2.win 2).cut (grid2.coords t) ((dat2 V c).after 2 t) = _
  rw [after2_2]
  unfold out2_2
  rw [View.canon_unit_zero zeroOffsets]
  simp only [View.ld_unit_zero (S := S2000x128) zeroOffsets, View.ld_unit_zero (S := S128x64) zeroOffsets]
  obtain ⟨e0, e1, e2, e3, e4, e5⟩ := index_facts t
  funext j
  obtain ⟨p, q, rfl⟩ : ∃ (p : Fin 2000) (q : Fin 64), j = ix2 p q := ⟨j 0, j 1, eq_ix2 j⟩
  show k2_pay1 (iblk2 V c 0 t) (iblk2 V c 1 t) (ix2 p q)
    = product (V c main_v47) (V c main_arg5) (((cfg2.win 2).blk t).view.emb (ix2 p q))
  refine block_entry (iblk2 V c 0 t) (iblk2 V c 1 t) (V c main_v47) (V c main_arg5) p q _ (fun k => ?_) (fun k => ?_)
  · show (V c main_v47 : Vec Ideal S100000x128 .f32) (((cfg2.win 0).blk t).view.emb (ix2 p k)) = _
    refine congrArg (V c main_v47 : Vec Ideal S100000x128 .f32) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  · show (V c main_arg5 : Vec Ideal S128x64 .f32) (((cfg2.win 1).blk t).view.emb (ix2 k q)) = _
    refine congrArg (V c main_arg5 : Vec Ideal S128x64 .f32) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega

/-- An index of the array is in point `t`'s block iff each coordinate is in the block's range on its axis. -/
theorem mem_block (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v48).slice (win2_2.rect t)).set ↔ _
  rw [View.set_slice_whole, Rect.mem_set_unit]
  exact Iff.rfl

/-- The row blocks tile the array: row `r` is in the block of point `r / 2000`, which is written back. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_2 _, ?_⟩
  obtain ⟨-, -, -, -, e4, e5⟩ := index_facts ⟨(i 0).val / 2000, by rw [hN]; omega⟩
  rw [mem_block]
  intro a
  match a with
  | ⟨0, _⟩ =>
    show win2_2.index _ (0 : Fin 2) * 2000 ≤ (i 0).val ∧ (i 0).val < win2_2.index _ (0 : Fin 2) * 2000 + 2000
    rw [e4]; show (i 0).val / 2000 * 2000 ≤ (i 0).val ∧ (i 0).val < (i 0).val / 2000 * 2000 + 2000; omega
  | ⟨1, _⟩ =>
    show win2_2.index _ (1 : Fin 2) * 64 ≤ (i 1).val ∧ (i 1).val < win2_2.index _ (1 : Fin 2) * 64 + 64
    rw [e5]; omega

/-- The array the region leaves is the whole product: every point writes back its block of it, and the blocks tile
    the array. -/
theorem value (c : Dev nD) :
    (dat2 (F := Ideal) V c).arrAt 2 cfg2.N
      = Host.dotGeneral (F := Ideal) (φ₁ := .f32) (φ₂ := .f32) Cert.ReferenceIdeal.dot_S100000x128_S128x64_S100000x64_1_0_0_1_n_n none (V c main_v47) (V c main_arg5) := by
  exact (dat2 (F := Ideal) V c).arrAt_eq_of_cover 2 (product (V c main_v47) (V c main_arg5))
    (fun t _ => flushed_block V c t) covered

end Cert.Gcn.Region2

end
-- ==== Proof.Region3.lean ====
/-
  Region 3, the second layer's epilogue: the array it leaves is the aggregate plus the bias row.
-/
import proofs.«177780_j29429115912800_1_alg».proof.Proof.Gen.KernelIdeal.Frame
import proofs.«177780_j29429115912800_1_alg».proof.Proof.Gen.ReferenceIdeal.Read
import proofs.«177780_j29429115912800_1_alg».proof.Proof.LibRowOps

set_option maxRecDepth 16384

noncomputable section

namespace Cert.Gcn.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The unit rectangle's offsets are the zero vector. -/
theorem zero_off : (![0, 0] : Fin 2 → Nat) = fun _ => 0 := funext fun a => by fin_cases a <;> rfl

/-- The body's payload at (p, q): the aggregate block's entry plus the bias row's entry q. -/
theorem payload_apply (brow : Vec Ideal S1x64 .f32) (blk : Vec Ideal S2000x64 .f32) (p : Fin 2000) (q : Fin 64) :
    k3_pay1 brow blk (ix2 p q) = blk (ix2 p q) + brow (ix2 (0 : Fin 1) q) := by
  unfold k3_pay1
  show shapeCast S2000x64 blk shapeCasts_S2000x64_S2000x64 (ix2 p q) + broadcastTo S2000x64 (shapeCast S1x64 (shapeCast S1x64 brow shapeCasts_S1x64_S1x64) shapeCasts_S1x64_S1x64) broadcasts_S1x64_S2000x64 (ix2 p q) = _
  rw [shapeCast_self blk, shapeCast_self brow, Cert.RowOps.rowParam_spread_apply]

/-- The claimed array at (r, q): the aggregate's entry plus the bias row's entry q. -/
theorem claimed_apply (agg : FVec Ideal S100000x64 .f32) (brow : FVec Ideal S1x64 .f32) (r : Fin 100000) (q : Fin 64) :
    (addf agg (broadcastInDim S100000x64 ![0, 1] Cert.ReferenceIdeal.Facts₀.bcast_S1x64_S100000x64_0_1 brow) : FVec Ideal S100000x64 .f32) (ix2 r q)
      = agg (ix2 r q) + brow (ix2 (0 : Fin 1) q) := by
  rw [addf_apply,
    broadcastInDim_apply _ Cert.ReferenceIdeal.Facts₀.bcast_S1x64_S100000x64_0_1 brow (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)])]

/-- The index maps over the grid: the aggregate's and the result's block at point t is block t of the rows, column block 0; the bias row's block is the whole row. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of the written block against one entry of the claimed array: when the aggregate block's entry (p, q) is the
    aggregate's entry at i, the staged bias row agrees with the bias row at column q, and i lies in column q. -/
theorem point_eq (agg : FVec Ideal S100000x64 .f32) (brow : FVec Ideal S1x64 .f32)
    (blk : Vec Ideal S2000x64 .f32) (bb : Vec Ideal S1x64 .f32) (p : Fin 2000) (q : Fin 64) (i : S100000x64.Idx)
    (hq : (i 1).val = q.val) (hblk : blk (ix2 p q) = agg i) (hbb : bb (ix2 (0 : Fin 1) q) = brow (ix2 (0 : Fin 1) q)) :
    k3_pay1 bb blk (ix2 p q)
      = (addf agg (broadcastInDim S100000x64 ![0, 1] Cert.ReferenceIdeal.Facts₀.bcast_S1x64_S100000x64_0_1 brow) : FVec Ideal S100000x64 .f32) i := by
  obtain ⟨r, q', rfl⟩ : ∃ (r : Fin 100000) (q' : Fin 64), i = ix2 r q' := ⟨i 0, i 1, eq_ix2 i⟩
  have hqq : q' = q := Fin.ext hq
  subst hqq
  rw [payload_apply, claimed_apply, hblk, hbb]

/-- What point t writes back is block t of the claimed array. -/
theorem flushed_eq (c : Dev nD) (t : Fin cfg3.N) :
    (dat3 (F := Ideal) V c).flushed 2 t = ((cfg3.win 2).blk t).view.read (Elt Ideal)
      (addf (V c main_v61 : FVec Ideal S100000x64 .f32)
          (broadcastInDim S100000x64 ![0, 1] Cert.ReferenceIdeal.Facts₀.bcast_S1x64_S100000x64_0_1 (V c main_v62 : FVec Ideal S1x64 .f32)) : FVec Ideal S100000x64 .f32) := by
  show (cfg3.win 2).cut (grid3.coords t) ((dat3 V c).after 2 t) = _
  rw [after3_2]
  unfold out3_2
  rw [View.canon_unit_zero zero_off]
  simp only [View.ld_unit_zero (S := S2000x64) zero_off, View.ld_unit_zero (S := S1x64) zero_off]
  obtain ⟨e0, e1, e2, e3, e4, e5⟩ := block_index t
  funext j
  obtain ⟨p, q, rfl⟩ : ∃ (p : Fin 2000) (q : Fin 64), j = ix2 p q := ⟨j 0, j 1, eq_ix2 j⟩
  refine point_eq (V c main_v61) (V c main_v62) (iblk3 V c 0 t) (iblk3 V c 1 t) p q (((cfg3.win 2).blk t).view.emb (ix2 p q)) ?_ ?_ ?_
  · -- the result's block keeps the column
    show win3_2.index t (1 : Fin 2) * 64 + 1 * q.val = q.val
    omega
  · -- the aggregate's block and the result's block are the same rows and columns
    show V c main_v61 (((cfg3.win 0).blk t).view.emb (ix2 p q)) = V c main_v61 (((cfg3.win 2).blk t).view.emb (ix2 p q))
    refine congrArg (V c main_v61) (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 64 + 1 * q.val = win3_2.index t (1 : Fin 2) * 64 + 1 * q.val; omega
  · -- the bias window is the whole one-row array
    show V c main_v62 (((cfg3.win 1).blk t).view.emb (ix2 (0 : Fin 1) q)) = V c main_v62 (ix2 (0 : Fin 1) q)
    refine congrArg (V c main_v62) (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega

/-- An index is in point t's block iff each coordinate is in the block's range on its axis. -/
theorem mem_blk (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v63).slice (win3_2.rect t)).set ↔ _
  rw [View.set_slice_whole, Rect.mem_set_unit]
  exact Iff.rfl

/-- The row blocks tile the array: row r is in the block of point r / 2000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 2000 :=
    ⟨⟨(i 0).val / 2000, by show _ < grid3.N; rw [N_3]; omega⟩, rfl⟩
  obtain ⟨-, -, -, -, e4, e5⟩ := block_index t
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

theorem value (c : Dev nD) :
    (dat3 (F := Ideal) V c).arrAt 2 cfg3.N
      = (addf (V c main_v61 : FVec Ideal S100000x64 .f32)
          (broadcastInDim S100000x64 ![0, 1] Cert.ReferenceIdeal.Facts₀.bcast_S1x64_S100000x64_0_1 (V c main_v62 : FVec Ideal S1x64 .f32)) : FVec Ideal S100000x64 .f32) :=
  (dat3 V c).arrAt_eq_of_cover 2 _ (fun t _ => flushed_eq V c t) cover

end Cert.Gcn.Region3

end
-- ==== Proof.Fold.lean ====
/-
  The kernel program's buffers at each boundary of its run, as functions of the argument arrays.

  The program alternates stretches of host operations with four regions. Before the first region the host builds the
  edge list with self-loops (sources, targets, weights), the degree of every node, and the symmetric normalisation
  `norm e = dinv (row e) · w e · dinv (col e)`. Each layer is then: a dense product (a region), a gather of the product's rows
  at the sources scaled by `norm` and added up at the targets (host), and the bias row added, for the first layer clamped
  below at zero (a region). The normalisation, the sources and the targets are computed once and read by both layers; the
  host-only program computes them once per layer, to the same value. Every host stretch is the same composition of
  operations as the host-only program's, so what is left to say is where each buffer is carried unchanged across a region
  and that each region's array is the corresponding whole-array operation.
-/
import proofs.«177780_j29429115912800_1_alg».proof.Proof.Region0
import proofs.«177780_j29429115912800_1_alg».proof.Proof.Region1
import proofs.«177780_j29429115912800_1_alg».proof.Proof.Region2
import proofs.«177780_j29429115912800_1_alg».proof.Proof.Region3

set_option maxRecDepth 16384

noncomputable section

namespace Cert.Gcn.Fold

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

/-! # The host stretches, for any float values

Stated over float values left abstract, a stretch's result and the host-only program's stage are compared operation by
operation: the same operations over the same operands. -/

section Host

variable {F : FTy → Type} [FloatOps F]

/-! ## A bias vector as one row: the reshape `[n] → [1, n]` is the broadcast along axis 1 -/

theorem biasRow128 (x : (⟨Cert.ReferenceIdeal.S128, .f32⟩ : BufTy).Contents (Elt F)) (h : S128.ShapeCasts S1x128) : shapeCast S1x128 x h = val_main_v47 (F := F) x := by
  funext i
  rw [val_main_v47_apply]
  refine shapeCast_apply x h i (idx_main_v47 i) ?_
  have h0 : (i 0).val < 1 := (i 0).isLt
  rw [Shape.rowMajor_val_one, Shape.rowMajor_val_two]
  show (i 1).val = (i 0).val * 128 + (i 1).val
  omega

theorem biasRow64 (x : (⟨Cert.ReferenceIdeal.S64, .f32⟩ : BufTy).Contents (Elt F)) (h : S64.ShapeCasts S1x64) : shapeCast S1x64 x h = val_main_v94 (F := F) x := by
  funext i
  rw [val_main_v94_apply]
  refine shapeCast_apply x h i (idx_main_v94 i) ?_
  have h0 : (i 0).val < 1 := (i 0).isLt
  rw [Shape.rowMajor_val_one, Shape.rowMajor_val_two]
  show (i 1).val = (i 0).val * 64 + (i 1).val
  omega

/-! ## At the first region's entry: the edge data, and the parameters as launched -/

section Entry

variable (m : (ℓ : Loc nD τ sig) → Buf (Elt F) ℓ) (ρ : Dev nD → PrngReg)

theorem row3 (c : Dev nD) : W3 m ρ c (Proc.devRef .tc main_v5) = val_main_v5 (F := F) (m ((c.tc : Thread nD τ).loc main_arg1)) := by
  dsimp only [W3, W2, W1, W0, hostOps0, hostOps0_1, hostOps0_2]; after_results_simp <;> rfl
theorem col3 (c : Dev nD) : W3 m ρ c (Proc.devRef .tc main_v6) = val_main_v7 (F := F) (m ((c.tc : Thread nD τ).loc main_arg1)) := by
  dsimp only [W3, W2, W1, W0, hostOps0, hostOps0_1, hostOps0_2]; after_results_simp <;> rfl
theorem norm3 (c : Dev nD) : W3 m ρ c (Proc.devRef .tc main_v31) = val_main_v32 (F := F) (m ((c.tc : Thread nD τ).loc main_arg1)) (m ((c.tc : Thread nD τ).loc main_arg2)) := by
  dsimp only [W3, W2, W1, W0, hostOps0, hostOps0_1, hostOps0_2]; after_results_simp <;> rfl
theorem arg0_3 (c : Dev nD) : W3 m ρ c (Proc.devRef .tc main_arg0) = (m ((c.tc : Thread nD τ).loc main_arg0)) := by
  dsimp only [W3, W2, W1, W0, hostOps0, hostOps0_1, hostOps0_2]; after_results_simp <;> rfl
theorem arg3_3 (c : Dev nD) : W3 m ρ c (Proc.devRef .tc main_arg3) = (m ((c.tc : Thread nD τ).loc main_arg3)) := by
  dsimp only [W3, W2, W1, W0, hostOps0, hostOps0_1, hostOps0_2]; after_results_simp <;> rfl
theorem arg4_3 (c : Dev nD) : W3 m ρ c (Proc.devRef .tc main_arg4) = (m ((c.tc : Thread nD τ).loc main_arg4)) := by
  dsimp only [W3, W2, W1, W0, hostOps0, hostOps0_1, hostOps0_2]; after_results_simp <;> rfl
theorem arg5_3 (c : Dev nD) : W3 m ρ c (Proc.devRef .tc main_arg5) = (m ((c.tc : Thread nD τ).loc main_arg5)) := by
  dsimp only [W3, W2, W1, W0, hostOps0, hostOps0_1, hostOps0_2]; after_results_simp <;> rfl
theorem arg6_3 (c : Dev nD) : W3 m ρ c (Proc.devRef .tc main_arg6) = (m ((c.tc : Thread nD τ).loc main_arg6)) := by
  dsimp only [W3, W2, W1, W0, hostOps0, hostOps0_1, hostOps0_2]; after_results_simp <;> rfl

end Entry

/-! ## The stretch between the first two regions, from any contents `Wv` at its start -/

theorem agg_after1 (Wv : Valuation τ sig (Elt F)) (x0 : (⟨Cert.ReferenceIdeal.S100000x256, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F)) (x3 : (⟨Cert.ReferenceIdeal.S256x128, .f32⟩ : BufTy).Contents (Elt F))
    (hn : Wv (Proc.devRef .tc main_v31) = val_main_v32 (F := F) x1 x2) (hr : Wv (Proc.devRef .tc main_v5) = val_main_v5 (F := F) x1)
    (hc : Wv (Proc.devRef .tc main_v6) = val_main_v7 (F := F) x1) (hh : Wv (Proc.devRef .tc main_v32) = val_main_v33 (F := F) x0 x3) :
    after hostOps1 Wv (Proc.devRef .tc main_v45) = val_main_v46 (F := F) x0 x1 x2 x3 := by
  dsimp only [hostOps1]; after_results_simp
  rw [hn, hr, hc, hh]
  rfl

theorem bias_after1 (Wv : Valuation τ sig (Elt F)) (x4 : (⟨Cert.ReferenceIdeal.S128, .f32⟩ : BufTy).Contents (Elt F)) (hb : Wv (Proc.devRef .tc main_arg4) = x4) :
    after hostOps1 Wv (Proc.devRef .tc main_v46) = val_main_v47 (F := F) x4 := by
  dsimp only [hostOps1]; after_results_simp
  rw [hb]
  exact biasRow128 _ _

theorem keep1_v5 (Wv : Valuation τ sig (Elt F)) : after hostOps1 Wv (Proc.devRef .tc main_v5) = Wv (Proc.devRef .tc main_v5) := by
  dsimp only [hostOps1]; after_results_simp
theorem keep1_v6 (Wv : Valuation τ sig (Elt F)) : after hostOps1 Wv (Proc.devRef .tc main_v6) = Wv (Proc.devRef .tc main_v6) := by
  dsimp only [hostOps1]; after_results_simp
theorem keep1_v31 (Wv : Valuation τ sig (Elt F)) : after hostOps1 Wv (Proc.devRef .tc main_v31) = Wv (Proc.devRef .tc main_v31) := by
  dsimp only [hostOps1]; after_results_simp
theorem keep1_arg5 (Wv : Valuation τ sig (Elt F)) : after hostOps1 Wv (Proc.devRef .tc main_arg5) = Wv (Proc.devRef .tc main_arg5) := by
  dsimp only [hostOps1]; after_results_simp
theorem keep1_arg6 (Wv : Valuation τ sig (Elt F)) : after hostOps1 Wv (Proc.devRef .tc main_arg6) = Wv (Proc.devRef .tc main_arg6) := by
  dsimp only [hostOps1]; after_results_simp

/-! ## The stretch between the last two regions, from any contents `Wv` at its start

The host-only program recomputes the sources, the targets and the normalisation for its second layer; its stages for
them are the first layer's, definition by definition. -/

theorem agg_after3 (Wv : Valuation τ sig (Elt F)) (x0 : (⟨Cert.ReferenceIdeal.S100000x256, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F)) (x3 : (⟨Cert.ReferenceIdeal.S256x128, .f32⟩ : BufTy).Contents (Elt F)) (x4 : (⟨Cert.ReferenceIdeal.S128, .f32⟩ : BufTy).Contents (Elt F)) (x5 : (⟨Cert.ReferenceIdeal.S128x64, .f32⟩ : BufTy).Contents (Elt F))
    (hn : Wv (Proc.devRef .tc main_v31) = val_main_v32 (F := F) x1 x2) (hr : Wv (Proc.devRef .tc main_v5) = val_main_v5 (F := F) x1)
    (hc : Wv (Proc.devRef .tc main_v6) = val_main_v7 (F := F) x1) (hh : Wv (Proc.devRef .tc main_v48) = val_main_v80 (F := F) x0 x1 x2 x3 x4 x5) :
    after hostOps3 Wv (Proc.devRef .tc main_v61) = val_main_v93 (F := F) x0 x1 x2 x3 x4 x5 := by
  dsimp only [hostOps3]; after_results_simp
  rw [hn, hr, hc, hh]
  rfl

theorem bias_after3 (Wv : Valuation τ sig (Elt F)) (x6 : (⟨Cert.ReferenceIdeal.S64, .f32⟩ : BufTy).Contents (Elt F)) (hb : Wv (Proc.devRef .tc main_arg6) = x6) :
    after hostOps3 Wv (Proc.devRef .tc main_v62) = val_main_v94 (F := F) x6 := by
  dsimp only [hostOps3]; after_results_simp
  rw [hb]
  exact biasRow64 _ _

/-! ## The regions' whole-array operations are the host-only program's stages -/

theorem dense1_stage (x0 : (⟨Cert.ReferenceIdeal.S100000x256, .f32⟩ : BufTy).Contents (Elt F)) (x3 : (⟨Cert.ReferenceIdeal.S256x128, .f32⟩ : BufTy).Contents (Elt F)) :
    Host.dotGeneral (F := F) Cert.ReferenceIdeal.dot_S100000x256_S256x128_S100000x128_1_0_0_1_n_n none x0 x3 = val_main_v33 (F := F) x0 x3 := rfl

theorem act1_stage (x0 : (⟨Cert.ReferenceIdeal.S100000x256, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F)) (x3 : (⟨Cert.ReferenceIdeal.S256x128, .f32⟩ : BufTy).Contents (Elt F)) (x4 : (⟨Cert.ReferenceIdeal.S128, .f32⟩ : BufTy).Contents (Elt F)) :
    maximumf (addf (val_main_v46 (F := F) x0 x1 x2 x3) (broadcastInDim Cert.ReferenceIdeal.S100000x128 ![0, 1] Cert.ReferenceIdeal.Facts₀.bcast_S1x128_S100000x128_0_1 (val_main_v47 (F := F) x4)))
        (broadcastInDim Cert.ReferenceIdeal.S100000x128 ![] Cert.ReferenceIdeal.Facts₀.bcast_S_S100000x128 (constant (F := F) Cert.ReferenceIdeal.S_ .f32 0x00000000#32))
      = val_main_v50 (F := F) x0 x1 x2 x3 x4 := rfl

theorem dense2_stage (x0 : (⟨Cert.ReferenceIdeal.S100000x256, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F)) (x3 : (⟨Cert.ReferenceIdeal.S256x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) :
    Host.dotGeneral (F := F) Cert.ReferenceIdeal.dot_S100000x128_S128x64_S100000x64_1_0_0_1_n_n none (val_main_v50 (F := F) x0 x1 x2 x3 x4) x5
      = val_main_v80 (F := F) x0 x1 x2 x3 x4 x5 := rfl

theorem out_stage (x0 : (⟨Cert.ReferenceIdeal.S100000x256, .f32⟩ : BufTy).Contents (Elt F)) (x1 : (⟨Cert.ReferenceIdeal.S2x1600000, .i32⟩ : BufTy).Contents (Elt F)) (x2 : (⟨Cert.ReferenceIdeal.S1600000, .f32⟩ : BufTy).Contents (Elt F)) (x3 : (⟨Cert.ReferenceIdeal.S256x128, .f32⟩ : BufTy).Contents (Elt F)) (x4 : (⟨Cert.ReferenceIdeal.S128, .f32⟩ : BufTy).Contents (Elt F)) (x5 : (⟨Cert.ReferenceIdeal.S128x64, .f32⟩ : BufTy).Contents (Elt F)) (x6 : (⟨Cert.ReferenceIdeal.S64, .f32⟩ : BufTy).Contents (Elt F)) :
    addf (val_main_v93 (F := F) x0 x1 x2 x3 x4 x5) (broadcastInDim Cert.ReferenceIdeal.S100000x64 ![0, 1] Cert.ReferenceIdeal.Facts₀.bcast_S1x64_S100000x64_0_1 (val_main_v94 (F := F) x6))
      = val_main_v96 (F := F) x0 x1 x2 x3 x4 x5 x6 := rfl

end Host

/-! # The run over the extended reals: carrying the buffers across the regions -/

variable (m : (ℓ : Loc nD τ sig) → Buf (Elt Ideal) ℓ) (ρ : Dev nD → PrngReg)

/-! ## After the first region: its array is the first dense product; the rest is carried -/

theorem row4 (c : Dev nD) : W4 m ρ c (Proc.devRef .tc main_v5) = val_main_v5 (F := Ideal) (m ((c.tc : Thread nD τ).loc main_arg1)) :=
  (W4_of_ne m ρ c main_v5 (by decide)).trans (row3 m ρ c)
theorem col4 (c : Dev nD) : W4 m ρ c (Proc.devRef .tc main_v6) = val_main_v7 (F := Ideal) (m ((c.tc : Thread nD τ).loc main_arg1)) :=
  (W4_of_ne m ρ c main_v6 (by decide)).trans (col3 m ρ c)
theorem norm4 (c : Dev nD) : W4 m ρ c (Proc.devRef .tc main_v31) = val_main_v32 (F := Ideal) (m ((c.tc : Thread nD τ).loc main_arg1)) (m ((c.tc : Thread nD τ).loc main_arg2)) :=
  (W4_of_ne m ρ c main_v31 (by decide)).trans (norm3 m ρ c)
theorem arg4_4 (c : Dev nD) : W4 m ρ c (Proc.devRef .tc main_arg4) = (m ((c.tc : Thread nD τ).loc main_arg4)) :=
  (W4_of_ne m ρ c main_arg4 (by decide)).trans (arg4_3 m ρ c)
theorem arg5_4 (c : Dev nD) : W4 m ρ c (Proc.devRef .tc main_arg5) = (m ((c.tc : Thread nD τ).loc main_arg5)) :=
  (W4_of_ne m ρ c main_arg5 (by decide)).trans (arg5_3 m ρ c)
theorem arg6_4 (c : Dev nD) : W4 m ρ c (Proc.devRef .tc main_arg6) = (m ((c.tc : Thread nD τ).loc main_arg6)) :=
  (W4_of_ne m ρ c main_arg6 (by decide)).trans (arg6_3 m ρ c)

theorem dense4 (c : Dev nD) : W4 m ρ c (Proc.devRef .tc main_v32) = val_main_v33 (F := Ideal) (m ((c.tc : Thread nD τ).loc main_arg0)) (m ((c.tc : Thread nD τ).loc main_arg3)) := by
  refine (W4_arr m ρ c 2).trans ((Cert.Gcn.Region0.value (V3 m ρ) c).trans ?_)
  dsimp only [V3]
  rw [arg0_3 m ρ c, arg3_3 m ρ c]
  exact dense1_stage _ _

/-! ## At the second region's entry: the first aggregate and the first bias row -/

theorem agg5 (c : Dev nD) : W5 m ρ c (Proc.devRef .tc main_v45) = val_main_v46 (F := Ideal) (m ((c.tc : Thread nD τ).loc main_arg0)) (m ((c.tc : Thread nD τ).loc main_arg1)) (m ((c.tc : Thread nD τ).loc main_arg2)) (m ((c.tc : Thread nD τ).loc main_arg3)) :=
  agg_after1 (W4 m ρ c) _ _ _ _ (norm4 m ρ c) (row4 m ρ c) (col4 m ρ c) (dense4 m ρ c)
theorem bias5 (c : Dev nD) : W5 m ρ c (Proc.devRef .tc main_v46) = val_main_v47 (F := Ideal) (m ((c.tc : Thread nD τ).loc main_arg4)) :=
  bias_after1 (W4 m ρ c) _ (arg4_4 m ρ c)
theorem row5 (c : Dev nD) : W5 m ρ c (Proc.devRef .tc main_v5) = val_main_v5 (F := Ideal) (m ((c.tc : Thread nD τ).loc main_arg1)) :=
  (keep1_v5 (W4 m ρ c)).trans (row4 m ρ c)
theorem col5 (c : Dev nD) : W5 m ρ c (Proc.devRef .tc main_v6) = val_main_v7 (F := Ideal) (m ((c.tc : Thread nD τ).loc main_arg1)) :=
  (keep1_v6 (W4 m ρ c)).trans (col4 m ρ c)
theorem norm5 (c : Dev nD) : W5 m ρ c (Proc.devRef .tc main_v31) = val_main_v32 (F := Ideal) (m ((c.tc : Thread nD τ).loc main_arg1)) (m ((c.tc : Thread nD τ).loc main_arg2)) :=
  (keep1_v31 (W4 m ρ c)).trans (norm4 m ρ c)
theorem arg5_5 (c : Dev nD) : W5 m ρ c (Proc.devRef .tc main_arg5) = (m ((c.tc : Thread nD τ).loc main_arg5)) := (keep1_arg5 (W4 m ρ c)).trans (arg5_4 m ρ c)
theorem arg6_5 (c : Dev nD) : W5 m ρ c (Proc.devRef .tc main_arg6) = (m ((c.tc : Thread nD τ).loc main_arg6)) := (keep1_arg6 (W4 m ρ c)).trans (arg6_4 m ρ c)

/-! ## After the second region: its array is the first layer's output -/

theorem row6 (c : Dev nD) : W6 m ρ c (Proc.devRef .tc main_v5) = val_main_v5 (F := Ideal) (m ((c.tc : Thread nD τ).loc main_arg1)) :=
  (W6_of_ne m ρ c main_v5 (by decide)).trans (row5 m ρ c)
theorem col6 (c : Dev nD) : W6 m ρ c (Proc.devRef .tc main_v6) = val_main_v7 (F := Ideal) (m ((c.tc : Thread nD τ).loc main_arg1)) :=
  (W6_of_ne m ρ c main_v6 (by decide)).trans (col5 m ρ c)
theorem norm6 (c : Dev nD) : W6 m ρ c (Proc.devRef .tc main_v31) = val_main_v32 (F := Ideal) (m ((c.tc : Thread nD τ).loc main_arg1)) (m ((c.tc : Thread nD τ).loc main_arg2)) :=
  (W6_of_ne m ρ c main_v31 (by decide)).trans (norm5 m ρ c)
theorem arg5_6 (c : Dev nD) : W6 m ρ c (Proc.devRef .tc main_arg5) = (m ((c.tc : Thread nD τ).loc main_arg5)) := (W6_of_ne m ρ c main_arg5 (by decide)).trans (arg5_5 m ρ c)
theorem arg6_6 (c : Dev nD) : W6 m ρ c (Proc.devRef .tc main_arg6) = (m ((c.tc : Thread nD τ).loc main_arg6)) := (W6_of_ne m ρ c main_arg6 (by decide)).trans (arg6_5 m ρ c)

theorem act6 (c : Dev nD) : W6 m ρ c (Proc.devRef .tc main_v47) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 2).trans ((Cert.Gcn.Region1.value (V5 m ρ) c).trans ?_)
  dsimp only [V5]
  rw [agg5 m ρ c, bias5 m ρ c]
  exact act1_stage _ _ _ _ _

/-! ## After the third region: its array is the second dense product -/

theorem row7 (c : Dev nD) : W7 m ρ c (Proc.devRef .tc main_v5) = val_main_v5 (F := Ideal) (m ((c.tc : Thread nD τ).loc main_arg1)) :=
  (W7_of_ne m ρ c main_v5 (by decide)).trans (row6 m ρ c)
theorem col7 (c : Dev nD) : W7 m ρ c (Proc.devRef .tc main_v6) = val_main_v7 (F := Ideal) (m ((c.tc : Thread nD τ).loc main_arg1)) :=
  (W7_of_ne m ρ c main_v6 (by decide)).trans (col6 m ρ c)
theorem norm7 (c : Dev nD) : W7 m ρ c (Proc.devRef .tc main_v31) = val_main_v32 (F := Ideal) (m ((c.tc : Thread nD τ).loc main_arg1)) (m ((c.tc : Thread nD τ).loc main_arg2)) :=
  (W7_of_ne m ρ c main_v31 (by decide)).trans (norm6 m ρ c)
theorem arg6_7 (c : Dev nD) : W7 m ρ c (Proc.devRef .tc main_arg6) = (m ((c.tc : Thread nD τ).loc main_arg6)) := (W7_of_ne m ρ c main_arg6 (by decide)).trans (arg6_6 m ρ c)

theorem dense7 (c : Dev nD) :
    W7 m ρ c (Proc.devRef .tc main_v48) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W7_arr m ρ c 2).trans ((Cert.Gcn.Region2.value (V6 m ρ) c).trans ?_)
  dsimp only [V6]
  rw [act6 m ρ c, arg5_6 m ρ c]
  exact dense2_stage _ _ _ _ _ _

/-! ## At the fourth region's entry, and after it: the result -/

theorem agg8 (c : Dev nD) :
    W8 m ρ c (Proc.devRef .tc main_v61) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  agg_after3 (W7 m ρ c) _ _ _ _ _ _ (norm7 m ρ c) (row7 m ρ c) (col7 m ρ c) (dense7 m ρ c)
theorem bias8 (c : Dev nD) : W8 m ρ c (Proc.devRef .tc main_v62) = val_main_v94 (F := Ideal) (m ((c.tc : Thread nD τ).loc main_arg6)) :=
  bias_after3 (W7 m ρ c) _ (arg6_7 m ρ c)

theorem result (c : Dev nD) :
    W9 m ρ c (Proc.devRef .tc main_v63) = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W9_arr m ρ c 2).trans ((Cert.Gcn.Region3.value (V8 m ρ) c).trans ?_)
  dsimp only [V8]
  rw [agg8 m ρ c, bias8 m ρ c]
  exact out_stage _ _ _ _ _ _ _

end Cert.Gcn.Fold

end
-- ==== Proof.lean ====
/-
  A two-layer graph convolution over 100000 nodes and 1600000 weighted edges, against its host-only statement.

  Both programs add a self-loop of weight one to every node, take each node's degree `deg` as the sum of the weights of
  the edges that end at it, put `dinv = 1 / sqrt deg` where the degree is positive and zero elsewhere, and scale every
  edge by `norm e = dinv (row e) · w e · dinv (col e)`. A layer is then `out (v, ·) = Σ over the edges e that end at v of
  norm e · (X · W) (row e, ·)`, plus the bias row; the first layer is clamped below at zero and feeds the second.

  The kernel program computes the two dense products `X · W` and the two bias epilogues in regions that walk the rows in
  blocks of 2000, and everything else on the host; the host-only program computes the whole products and the epilogues
  as single operations, and recomputes the edge data for the second layer. Over the extended reals a change of float
  format is the identity, so a block of rows of a product is the same sum over the contracted axis as the whole product
  at those rows, and the blocks tile the rows; the epilogue acts entry by entry; and the edge data are the same function
  of the edge list and the weights however often they are computed. No law that needs finite values is used: the two
  results are the same composition of the same operations, so the claim is proved without opening the precondition.

  Proof/Region0 … Region3 say what array each region leaves; Proof/Fold carries every buffer from the launch to the
  return; Proof/KernelRun is the kernel program's run with its result array named.
-/
import proofs.«177780_j29429115912800_1_alg».proof.Defs
import proofs.«177780_j29429115912800_1_alg».proof.Proof.Gen.Kernel
import proofs.«177780_j29429115912800_1_alg».proof.Proof.Gen.Kernel.Frame
import proofs.«177780_j29429115912800_1_alg».proof.Proof.Gen.KernelIdeal
import proofs.«177780_j29429115912800_1_alg».proof.Proof.Gen.KernelIdeal.Frame
import proofs.«177780_j29429115912800_1_alg».proof.Proof.Gen.ReferenceIdeal
import proofs.«177780_j29429115912800_1_alg».proof.Proof.Gen.ReferenceIdeal.Run
import proofs.«177780_j29429115912800_1_alg».proof.Proof.Gen.ReferenceIdeal.Read
import proofs.«177780_j29429115912800_1_alg».proof.Proof.Gen.Pre_finite_inputs
import proofs.«177780_j29429115912800_1_alg».proof.Proof.KernelRun
import proofs.«177780_j29429115912800_1_alg».proof.Proof.Fold
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Gen.frame m ρ

/-- The same of the idealized kernel program. -/
theorem frame_ideal : Cert.frame_KernelIdeal := fun m ρ _ => Cert.KernelIdeal.Gen.frame m ρ

/-- The host-only program's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Both programs end with the second layer's output of the argument arrays: the kernel program by the fold through its
    four regions, the host-only program by its run, from arguments that agree. -/
theorem algebraic : Cert.algebraic_KernelIdeal_ReferenceIdeal := by
  intro m ρ m' ρ' _ hagree
  refine ⟨fun c => Cert.ReferenceIdeal.Read.val_main_v96 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Gcn.Fold.result m ρ c), (h c).2⟩) (Cert.Gcn.KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v96_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
